-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x1x128 : Shape := ⟨4, ![8, 32, 1, 128]⟩
abbrev S8x32x4096x128 : Shape := ⟨4, ![8, 32, 4096, 128]⟩
abbrev S8x1x1x4096 : Shape := ⟨4, ![8, 1, 1, 4096]⟩
abbrev S_ : Shape := ⟨0, ![]⟩

class Facts : Prop where
  bcast_S_S8x32x1x128 : S_.BroadcastsInDim S8x32x1x128 (![] : Fin 0 → Fin S8x32x1x128.rank)
  reducesTo_S8x32x1x128_S_d0_1_2_3 : S8x32x1x128.ReducesTo [0, 1, 2, 3] S_
  h_S_ : 0 < S_.numel
  bcast_S_S8x32x4096x128 : S_.BroadcastsInDim S8x32x4096x128 (![] : Fin 0 → Fin S8x32x4096x128.rank)
  reducesTo_S8x32x4096x128_S_d0_1_2_3 : S8x32x4096x128.ReducesTo [0, 1, 2, 3] S_
  bcast_S_S8x1x1x4096 : S_.BroadcastsInDim S8x1x1x4096 (![] : Fin 0 → Fin S8x1x1x4096.rank)
  reducesTo_S8x1x1x4096_S_d0_1_2_3 : S8x1x1x4096.ReducesTo [0, 1, 2, 3] S_

variable [Facts]

def fn_part1 {F : FTy → Type} [FloatOps F] (main_v13 : IVec S_ 1) (main_v16 : IVec S8x1x1x4096 1) : IVec S_ 1 :=
  let main_c_5 : IVec S_ 1 := constantI S_ 1 1#1
  let main_v17 : IVec S_ 1 := (fun x v => Host.reduce IntOp.andi x v reducesTo_S8x1x1x4096_S_d0_1_2_3 h_S_) main_v16 main_c_5
  let main_v18 : IVec S_ 1 := andi main_v13 main_v17
  main_v18

def fn {F : FTy → Type} [FloatOps F] (main_arg0 : FVec F S8x32x1x128 .f32) (main_arg1 : FVec F S8x32x4096x128 .f32) (main_arg2 : FVec F S8x32x4096x128 .f32) (main_arg3 : FVec F S8x1x1x4096 .f32) : IVec S_ 1 :=
  let main_v0 : FVec F S8x32x1x128 .f32 := Host.absf main_arg0
  let main_cst : FVec F S_ .f32 := constant S_ .f32 0x7F800000#32
  let main_v1 : FVec F S8x32x1x128 .f32 := broadcastInDim S8x32x1x128 ![] bcast_S_S8x32x1x128 main_cst
  let main_v2 : IVec S8x32x1x128 1 := cmpf .olt main_v0 main_v1
  let main_c : IVec S_ 1 := constantI S_ 1 1#1
  let main_v3 : IVec S_ 1 := (fun x v => Host.reduce IntOp.andi x v reducesTo_S8x32x1x128_S_d0_1_2_3 h_S_) main_v2 main_c
  let main_v4 : FVec F S8x32x4096x128 .f32 := Host.absf main_arg1
  let main_cst_0 : FVec F S_ .f32 := constant S_ .f32 0x7F800000#32
  let main_v5 : FVec F S8x32x4096x128 .f32 := broadcastInDim S8x32x4096x128 ![] bcast_S_S8x32x4096x128 main_cst_0
  let main_v6 : IVec S8x32x4096x128 1 := cmpf .olt main_v4 main_v5
  let main_c_1 : IVec S_ 1 := constantI S_ 1 1#1
  let main_v7 : IVec S_ 1 := (fun x v => Host.reduce IntOp.andi x v reducesTo_S8x32x4096x128_S_d0_1_2_3 h_S_) main_v6 main_c_1
  let main_v8 : IVec S_ 1 := andi main_v3 main_v7
  let main_v9 : FVec F S8x32x4096x128 .f32 := Host.absf main_arg2
  let main_cst_2 : FVec F S_ .f32 := constant S_ .f32 0x7F800000#32
  let main_v10 : FVec F S8x32x4096x128 .f32 := broadcastInDim S8x32x4096x128 ![] bcast_S_S8x32x4096x128 main_cst_2
  let main_v11 : IVec S8x32x4096x128 1 := cmpf .olt main_v9 main_v10
  let main_c_3 : IVec S_ 1 := constantI S_ 1 1#1
  let main_v12 : IVec S_ 1 := (fun x v => Host.reduce IntOp.andi x v reducesTo_S8x32x4096x128_S_d0_1_2_3 h_S_) main_v11 main_c_3
  let main_v13 : IVec S_ 1 := andi main_v8 main_v12
  let main_v14 : FVec F S8x1x1x4096 .f32 := Host.absf main_arg3
  let main_cst_4 : FVec F S_ .f32 := constant S_ .f32 0x7F800000#32
  let main_v15 : FVec F S8x1x1x4096 .f32 := broadcastInDim S8x1x1x4096 ![] bcast_S_S8x1x1x4096 main_cst_4
  let main_v16 : IVec S8x1x1x4096 1 := cmpf .olt main_v14 main_v15
  fn_part1 (F := F) main_v13 main_v16
-- ==== Kernel.lean ====
abbrev S8x32x1x128 : Shape := ⟨4, ![8, 32, 1, 128]⟩
abbrev S8x32x4096x128 : Shape := ⟨4, ![8, 32, 4096, 128]⟩
abbrev S8x1x1x4096 : Shape := ⟨4, ![8, 1, 1, 4096]⟩
abbrev S1x4x1x128 : Shape := ⟨4, ![1, 4, 1, 128]⟩
abbrev S1x4x4096x128 : Shape := ⟨4, ![1, 4, 4096, 128]⟩
abbrev S1x1x1x4096 : Shape := ⟨4, ![1, 1, 1, 4096]⟩
abbrev S4x1x128 : Shape := ⟨3, ![4, 1, 128]⟩
abbrev S4x4096x128 : Shape := ⟨3, ![4, 4096, 128]⟩
abbrev S1x1x4096 : Shape := ⟨3, ![1, 1, 4096]⟩
abbrev S4x1x4096 : Shape := ⟨3, ![4, 1, 4096]⟩
abbrev S4x1 : Shape := ⟨2, ![4, 1]⟩
abbrev S4x1x1 : Shape := ⟨3, ![4, 1, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x32x1x128, .f32⟩
  | .hbm, ⟨1, _⟩ => ⟨S8x32x4096x128, .f32⟩
  | .hbm, ⟨2, _⟩ => ⟨S8x32x4096x128, .f32⟩
  | .hbm, ⟨3, _⟩ => ⟨S8x1x1x4096, .f32⟩
  | .hbm, ⟨4, _⟩ => ⟨S8x32x1x128, .f32⟩
  | .local _ .vmem, ⟨0, _⟩ => ⟨S1x4x1x128, .f32⟩
  | .local _ .vmem, ⟨1, _⟩ => ⟨S1x4x1x128, .f32⟩
  | .local _ .vmem, ⟨2, _⟩ => ⟨S1x4x4096x128, .f32⟩
  | .local _ .vmem, ⟨3, _⟩ => ⟨S1x4x4096x128, .f32⟩
  | .local _ .vmem, ⟨4, _⟩ => ⟨S1x4x4096x128, .f32⟩
  | .local _ .vmem, ⟨5, _⟩ => ⟨S1x4x4096x128, .f32⟩
  | .local _ .vmem, ⟨6, _⟩ => ⟨S1x1x1x4096, .f32⟩
  | .local _ .vmem, ⟨7, _⟩ => ⟨S1x1x1x4096, .f32⟩
  | .local _ .vmem, ⟨8, _⟩ => ⟨S1x4x1x128, .f32⟩
  | .local _ .vmem, ⟨9, _⟩ => ⟨S1x4x1x128, .f32⟩
  | _, _ => ⟨S8x32x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4x1x128_S1x4x1x128_0_0_0_0 : ∀ a, (![0, 0, 0, 0] : Fin 4 → Nat) a + S1x4x1x128.size a ≤ S1x4x1x128.size a
  h_S1x4x1x128 : 0 < S1x4x1x128.numel
  shapeCasts_S1x4x1x128_S4x1x128 : S1x4x1x128.ShapeCasts S4x1x128
  bitsLt_bf16_f32 : FTy.bits .bf16 < FTy.bits .f32
  inb_S1x4x4096x128_S1x4x4096x128_0_0_0_0 : ∀ a, (![0, 0, 0, 0] : Fin 4 → Nat) a + S1x4x4096x128.size a ≤ S1x4x4096x128.size a
  h_S1x4x4096x128 : 0 < S1x4x4096x128.numel
  shapeCasts_S1x4x4096x128_S4x4096x128 : S1x4x4096x128.ShapeCasts S4x4096x128
  inb_S1x1x1x4096_S1x1x1x4096_0_0_0_0 : ∀ a, (![0, 0, 0, 0] : Fin 4 → Nat) a + S1x1x1x4096.size a ≤ S1x1x1x4096.size a
  h_S1x1x1x4096 : 0 < S1x1x1x4096.numel
  shapeCasts_S1x1x1x4096_S1x1x4096 : S1x1x1x4096.ShapeCasts S1x1x4096
  broadcasts_S1x1x4096_S4x1x4096 : S1x1x4096.Broadcasts S4x1x4096
  reduces_S4x1x4096_S4x1 : S4x1x4096.Reduces [2] S4x1
  shapeCasts_S4x1_S4x1x1 : S4x1.ShapeCasts S4x1x1
  broadcasts_S4x1x1_S4x1x4096 : S4x1x1.Broadcasts S4x1x4096
  shapeCasts_S4x1x128_S1x4x1x128 : S4x1x128.ShapeCasts S1x4x1x128
  dot_S4x1x128_S4x4096x128_S4x1x4096_2_2_1_1_0_0_wf : DotDims.WF S4x1x128 S4x4096x128 S4x1x4096 [2] [2] [1] [1] [0] [0]
  dot_S4x1x4096_S4x4096x128_S4x1x128_2_1_1_2_0_0_wf : DotDims.WF S4x1x4096 S4x4096x128 S4x1x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x1x128.size a ≤ S8x32x1x128.size a
  hwx0_0 : ∀ i : grid0.Coords, EltTy.bits .f32 = 32 ∨ (Rect.block (s := S8x32x1x128) S1x4x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4096x128.size a ≤ S8x32x4096x128.size a
  hwx0_1 : ∀ i : grid0.Coords, EltTy.bits .f32 = 32 ∨ (Rect.block (s := S8x32x4096x128) S1x4x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x4096x128.size a ≤ S8x32x4096x128.size a
  hwx0_2 : ∀ i : grid0.Coords, EltTy.bits .f32 = 32 ∨ (Rect.block (s := S8x32x4096x128) S1x4x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x4096.size a ≤ S8x1x1x4096.size a
  hwx0_3 : ∀ i : grid0.Coords, EltTy.bits .f32 = 32 ∨ (Rect.block (s := S8x1x1x4096) S1x1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x1x128.size a ≤ S8x32x1x128.size a
  hwx0_4 : ∀ i : grid0.Coords, EltTy.bits .f32 = 32 ∨ (Rect.block (s := S8x32x1x128) S1x4x1x128.size (cc0_transform_4 i) (hinb0_4 i)).WholeWords (EltTy.packing .f32)

variable [Facts₀]

def dot_S4x1x128_S4x4096x128_S4x1x4096_2_2_1_1_0_0 : DotDims S4x1x128 S4x4096x128 S4x1x4096 where
  lhsContracting := [2]
  rhsContracting := [2]
  lhsNonContracting := [1]
  rhsNonContracting := [1]
  lhsBatch := [0]
  rhsBatch := [0]
  wf := dot_S4x1x128_S4x4096x128_S4x1x4096_2_2_1_1_0_0_wf
def dot_S4x1x4096_S4x4096x128_S4x1x128_2_1_1_2_0_0 : DotDims S4x1x4096 S4x4096x128 S4x1x128 where
  lhsContracting := [2]
  rhsContracting := [1]
  lhsNonContracting := [1]
  rhsNonContracting := [2]
  lhsBatch := [0]
  rhsBatch := [0]
  wf := dot_S4x1x4096_S4x4096x128_S4x1x128_2_1_1_2_0_0_wf

abbrev win0_0 : Pipeline.Window sig grid0 :=
  Pipeline.Window.ofSpec (Memref.whole main_arg0) S1x4x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x1x128 : Shape := ⟨4, ![8, 32, 1, 128]⟩
abbrev S8x32x4096x128 : Shape := ⟨4, ![8, 32, 4096, 128]⟩
abbrev S8x1x1x4096 : Shape := ⟨4, ![8, 1, 1, 4096]⟩
abbrev S_ : Shape := ⟨0, ![]⟩
abbrev S8x32x1x4096 : Shape := ⟨4, ![8, 32, 1, 4096]⟩
abbrev S8x32x1 : Shape := ⟨3, ![8, 32, 1]⟩
abbrev S8x32x1x1 : Shape := ⟨4, ![8, 32, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x32x1x128, .f32⟩
  | .hbm, ⟨1, _⟩ => ⟨S8x32x4096x128, .f32⟩
  | .hbm, ⟨2, _⟩ => ⟨S8x32x4096x128, .f32⟩
  | .hbm, ⟨3, _⟩ => ⟨S8x1x1x4096, .f32⟩
  | .hbm, ⟨4, _⟩ => ⟨S_, .f32⟩
  | .hbm, ⟨5, _⟩ => ⟨S8x32x1x128, .f32⟩
  | .hbm, ⟨6, _⟩ => ⟨S8x32x1x128, .f32⟩
  | .hbm, ⟨7, _⟩ => ⟨S8x32x1x4096, .f32⟩
  | .hbm, ⟨8, _⟩ => ⟨S8x32x1x4096, .f32⟩
  | .hbm, ⟨9, _⟩ => ⟨S8x32x1x4096, .f32⟩
  | .hbm, ⟨10, _⟩ => ⟨S_, .f32⟩
  | .hbm, ⟨11, _⟩ => ⟨S8x32x1, .f32⟩
  | .hbm, ⟨12, _⟩ => ⟨S_, .f32⟩
  | .hbm, ⟨13, _⟩ => ⟨S8x32x1, .f32⟩
  | .hbm, ⟨14, _⟩ => ⟨S8x32x1, .f32⟩
  | .hbm, ⟨15, _⟩ => ⟨S8x32x1x1, .f32⟩
  | .hbm, ⟨16, _⟩ => ⟨S8x32x1x4096, .f32⟩
  | .hbm, ⟨17, _⟩ => ⟨S8x32x1x4096, .f32⟩
  | .hbm, ⟨18, _⟩ => ⟨S8x32x1x4096, .f32⟩
  | .hbm, ⟨19, _⟩ => ⟨S_, .f32⟩
  | .hbm, ⟨20, _⟩ => ⟨S8x32x1, .f32⟩
  | .hbm, ⟨21, _⟩ => ⟨S8x32x1x1, .f32⟩
  | .hbm, ⟨22, _⟩ => ⟨S8x32x1x4096, .f32⟩
  | .hbm, ⟨23, _⟩ => ⟨S8x32x1x4096, .f32⟩
  | .hbm, ⟨24, _⟩ => ⟨S8x32x1x128, .f32⟩
  | _, _ => ⟨S8x32x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S8x32x1x128 : S_.BroadcastsInDim S8x32x1x128 (![] : Fin 0 → Fin S8x32x1x128.rank)
  bcast_S8x1x1x4096_S8x32x1x4096_0_1_2_3 : S8x1x1x4096.BroadcastsInDim S8x32x1x4096 (![0, 1, 2, 3] : Fin 4 → Fin S8x32x1x4096.rank)
  reducesTo_S8x32x1x4096_S8x32x1_d3 : S8x32x1x4096.ReducesTo [3] S8x32x1
  h_S_ : 0 < S_.numel
  bcast_S_S8x32x1 : S_.BroadcastsInDim S8x32x1 (![] : Fin 0 → Fin S8x32x1.rank)
  bcast_S8x32x1_S8x32x1x1_0_1_2 : S8x32x1.BroadcastsInDim S8x32x1x1 (![0, 1, 2] : Fin 3 → Fin S8x32x1x1.rank)
  bcast_S8x32x1x1_S8x32x1x4096_0_1_2_3 : S8x32x1x1.BroadcastsInDim S8x32x1x4096 (![0, 1, 2, 3] : Fin 4 → Fin S8x32x1x4096.rank)
  dot_S8x32x1x128_S8x32x4096x128_S8x32x1x4096_3_3_2_2_01_01_wf : DotDims.WF S8x32x1x128 S8x32x4096x128 S8x32x1x4096 [3] [3] [2] [2] [0, 1] [0, 1]
  dot_S8x32x1x4096_S8x32x4096x128_S8x32x1x128_3_2_2_3_01_01_wf : DotDims.WF S8x32x1x4096 S8x32x4096x128 S8x32x1x128 [3] [2] [2] [3] [0, 1] [0, 1]

variable [Facts₀]

def dot_S8x32x1x128_S8x32x4096x128_S8x32x1x4096_3_3_2_2_01_01 : DotDims S8x32x1x128 S8x32x4096x128 S8x32x1x4096 where
  lhsContracting := [3]
  rhsContracting := [3]
  lhsNonContracting := [2]
  rhsNonContracting := [2]
  lhsBatch := [0, 1]
  rhsBatch := [0, 1]
  wf := dot_S8x32x1x128_S8x32x4096x128_S8x32x1x4096_3_3_2_2_01_01_wf
def dot_S8x32x1x4096_S8x32x4096x128_S8x32x1x128_3_2_2_3_01_01 : DotDims S8x32x1x4096 S8x32x4096x128 S8x32x1x128 where
  lhsContracting := [3]
  rhsContracting := [2]
  lhsNonContracting := [2]
  rhsNonContracting := [3]
  lhsBatch := [0, 1]
  rhsBatch := [0, 1]
  wf := dot_S8x32x1x4096_S8x32x4096x128_S8x32x1x128_3_2_2_3_01_01_wf

class Facts : Prop extends Facts₀ where

variable [Facts]
-- ==== Proof.Attention.lean ====
/-
  Single-query attention as one function of the four argument arrays.

  For a batch entry b and a head h the query row q = Q[b, h, 0, :] (128 numbers), the keys k s = K[b, h, s, :] and
  values v s = V[b, h, s, :] (4096 rows of 128) and the mask row μ = M[b, 0, 0, :] (4096 numbers) give

    score s   = Σ_d (q d · c) · k s d + μ s                     (c the scale, one f32 word)
    top       = max(−∞, max over s of score s, taken from −∞)
    e s       = exp (score s − top)
    weight s  = e s / Σ_r e r
    out d     = Σ_s weight s · v s d

  on the extended reals. Both programs compute exactly these operations in exactly this order, so nothing
  about the arithmetic of the extended reals is needed: the two sides are shown equal to this one function.
-/
import Idealize.ShloMosaic.PureOps.Ideal
import Idealize.ShloMosaic.Lib.ValueIdx

noncomputable section

open scoped BigOperators

namespace Cert.Attention

open Idealize.ShloMosaic Idealize.ShloMosaic.ValueIdx

/-- The scale the query is multiplied by: one f32 word, the same in both programs; its value is never needed. -/
abbrev scale : EReal := Ideal.ofBits .f32 0x3DB504F3#32

/-- The word of −∞, from which a row's maximum is taken. -/
abbrev negInf : EReal := Ideal.ofBits .f32 0xFF800000#32

/-- The score of key `s`: the scaled query against that key, plus the key's mask entry. -/
def score (q : Fin 128 → EReal) (k : Fin 4096 → Fin 128 → EReal) (μ : Fin 4096 → EReal) (s : Fin 4096) : EReal :=
  (∑ d : Fin 128, q d * scale * k s d) + μ s

/-- The largest score of a row, taken from −∞, and once more against −∞ (as both programs do). -/
def rowMax (x : Fin 4096 → EReal) : EReal :=
  max negInf ((Finset.univ : Finset (Fin 4096)).fold max negInf x)

/-- The unnormalized weight of key `s`. -/
def unnorm (x : Fin 4096 → EReal) (s : Fin 4096) : EReal := Ideal.exp (x s - rowMax x)

/-- The softmax weight of key `s`: its unnormalized weight over the row's total. -/
def weight (x : Fin 4096 → EReal) (s : Fin 4096) : EReal := Ideal.div (unnorm x s) (∑ r : Fin 4096, unnorm x r)

/-- Coordinate `d` of the attended value: the weighted sum of the value rows. -/
def attend (q : Fin 128 → EReal) (k v : Fin 4096 → Fin 128 → EReal) (μ : Fin 4096 → EReal) (d : Fin 128) : EReal :=
  ∑ s : Fin 4096, weight (score q k μ) s * v s d

/-- The query row of batch entry `b`, head `h`. -/
abbrev rowQ (Q : (⟨4, ![8, 32, 1, 128]⟩ : Shape).Idx → EReal) (b : Fin 8) (h : Fin 32) : Fin 128 → EReal :=
  fun d => Q (ix4 b h (0 : Fin 1) d)

/-- The key (or value) rows of batch entry `b`, head `h`. -/
abbrev rowsKV (K : (⟨4, ![8, 32, 4096, 128]⟩ : Shape).Idx → EReal) (b : Fin 8) (h : Fin 32) : Fin 4096 → Fin 128 → EReal :=
  fun s d => K (ix4 b h s d)

/-- The mask row of batch entry `b` (shared by the heads). -/
abbrev rowM (M : (⟨4, ![8, 1, 1, 4096]⟩ : Shape).Idx → EReal) (b : Fin 8) : Fin 4096 → EReal :=
  fun s => M (ix4 b (0 : Fin 1) (0 : Fin 1) s)

/-- The result at batch entry `b`, head `h`, coordinate `d`, from the whole argument arrays. -/
def attentionAt (Q : (⟨4, ![8, 32, 1, 128]⟩ : Shape).Idx → EReal) (K V : (⟨4, ![8, 32, 4096, 128]⟩ : Shape).Idx → EReal)
    (M : (⟨4, ![8, 1, 1, 4096]⟩ : Shape).Idx → EReal) (b : Fin 8) (h : Fin 32) (d : Fin 128) : EReal :=
  attend (rowQ Q b h) (rowsKV K b h) (rowsKV V b h) (rowM M b) d

/-- The whole result array. -/
def attention (Q : (⟨4, ![8, 32, 1, 128]⟩ : Shape).Idx → EReal) (K V : (⟨4, ![8, 32, 4096, 128]⟩ : Shape).Idx → EReal)
    (M : (⟨4, ![8, 1, 1, 4096]⟩ : Shape).Idx → EReal) : (⟨4, ![8, 32, 1, 128]⟩ : Shape).Idx → EReal :=
  fun i => attentionAt Q K V M ⟨(i 0).val, (i 0).isLt⟩ ⟨(i 1).val, (i 1).isLt⟩ ⟨(i 3).val, (i 3).isLt⟩

/-- At an index written by coordinates the result is `attentionAt` at those coordinates. -/
theorem attention_ix4 (Q : (⟨4, ![8, 32, 1, 128]⟩ : Shape).Idx → EReal) (K V : (⟨4, ![8, 32, 4096, 128]⟩ : Shape).Idx → EReal)
    (M : (⟨4, ![8, 1, 1, 4096]⟩ : Shape).Idx → EReal) (b : Fin 8) (h : Fin 32) (z : Fin 1) (d : Fin 128) :
    attention Q K V M (ix4 b h z d) = attentionAt Q K V M b h d := rfl

end Cert.Attention

end
-- ==== Proof.BodyValue.lean ====
/-
  What the kernel's body computes from its four blocks.

  A grid point's blocks are a [1, 4, 1, 128] piece of the queries (four heads of one batch entry), the matching
  [1, 4, 4096, 128] pieces of the keys and of the values, and the batch entry's [1, 1, 1, 4096] mask row. The body drops
  the leading unit axis, scales the queries, contracts them with the keys over the 128 coordinates (one product per head),
  adds the mask row to every head, takes each head's maximum over the 4096 keys from −∞ (and against −∞ once more),
  exponentiates the differences, divides by each head's sum, and contracts the quotients with the values over the keys.
  Read at the index (0, h, 0, d), that is `attend` of head h's rows of the blocks. The changes of float format in
  between are the identity on the extended reals.
-/
import proofs.«410718_j54391465836544_3_alg».proof.Proof.Gen.KernelIdeal.Skeleton
import proofs.«410718_j54391465836544_3_alg».proof.Proof.Attention
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Attention.Body

open Idealize.ShloMosaic Idealize.ShloMosaic.ValueIdx
open Cert.KernelIdeal Cert.KernelIdeal.Gen Cert.Attention

/-! ## Rows of the blocks -/

/-- Head `h`'s query row of the query block. -/
abbrev blkQ (x0 : Vec Ideal S1x4x1x128 .f32) (h : Fin 4) : Fin 128 → EReal :=
  fun d => x0 (ix4 (0 : Fin 1) h (0 : Fin 1) d)

/-- Head `h`'s rows of a key (or value) block. -/
abbrev blkKV (x : Vec Ideal S1x4x4096x128 .f32) (h : Fin 4) : Fin 4096 → Fin 128 → EReal :=
  fun s d => x (ix4 (0 : Fin 1) h s d)

/-- The mask block's one row. -/
abbrev blkM (x3 : Vec Ideal S1x1x1x4096 .f32) : Fin 4096 → EReal :=
  fun s => x3 (ix4 (0 : Fin 1) (0 : Fin 1) (0 : Fin 1) s)

/-! ## The body's stages as vectors -/

/-- The scaled queries, [4, 1, 128]. -/
def scaledQ (x0 : Vec Ideal S1x4x1x128 .f32) : FVec Ideal S4x1x128 .bf16 :=
  truncf .bf16 (mulf (shapeCast S4x1x128 x0 shapeCasts_S1x4x1x128_S4x1x128) (broadcast S4x1x128 (Scalar.ofBits .f32 0x3DB504F3#32))) bitsLt_bf16_f32

/-- A key (or value) block without its unit axis, [4, 4096, 128]. -/
def rowsOf (x : Vec Ideal S1x4x4096x128 .f32) : FVec Ideal S4x4096x128 .bf16 :=
  truncf .bf16 (shapeCast S4x4096x128 x shapeCasts_S1x4x4096x128_S4x4096x128) bitsLt_bf16_f32

/-- The scores, [4, 1, 4096]: the product of the scaled queries with the keys, plus the mask row on every head. -/
def scoresV (x0 : Vec Ideal S1x4x1x128 .f32) (x1 : Vec Ideal S1x4x4096x128 .f32) (x3 : Vec Ideal S1x1x1x4096 .f32) : FVec Ideal S4x1x4096 .f32 :=
  addf (matmul dot_S4x1x128_S4x4096x128_S4x1x4096_2_2_1_1_0_0 none (scaledQ x0) (rowsOf x1) (constant S4x1x4096 .f32 0x00000000#32))
    (broadcastTo S4x1x4096 (shapeCast S1x1x4096 x3 shapeCasts_S1x1x1x4096_S1x1x4096) broadcasts_S1x1x4096_S4x1x4096)

/-- Each head's top score, [4, 1]. -/
def topV (sc : FVec Ideal S4x1x4096 .f32) : FVec Ideal S4x1 .f32 :=
  maximumf (broadcast S4x1 (Scalar.ofBits .f32 0xFF800000#32))
    (multiReduction .maximumf [2] S4x1 sc 0xFF800000#32 reduces_S4x1x4096_S4x1 (.inl rfl) rfl)

/-- The exponentials of the scores less their head's top, [4, 1, 4096]. -/
def expV (sc : FVec Ideal S4x1x4096 .f32) : FVec Ideal S4x1x4096 .f32 :=
  exp (subf sc (broadcastTo S4x1x4096 (shapeCast S4x1x1 (topV sc) shapeCasts_S4x1_S4x1x1) broadcasts_S4x1x1_S4x1x4096))

/-- Each head's sum over the keys, [4, 1]. -/
def totalV (e : FVec Ideal S4x1x4096 .f32) : FVec Ideal S4x1 .f32 :=
  multiReduction .add [2] S4x1 e 0x00000000#32 reduces_S4x1x4096_S4x1 (.inl rfl) rfl

/-- The quotients by their head's sum, [4, 1, 4096]. -/
def weightsV (e : FVec Ideal S4x1x4096 .f32) : FVec Ideal S4x1x4096 .f32 :=
  divf e (broadcastTo S4x1x4096 (shapeCast S4x1x1 (totalV e) shapeCasts_S4x1_S4x1x1) broadcasts_S4x1x1_S4x1x4096)

/-- The product of the weights with the values, [4, 1, 128]. -/
def outV (x0 : Vec Ideal S1x4x1x128 .f32) (x1 x2 : Vec Ideal S1x4x4096x128 .f32) (x3 : Vec Ideal S1x1x1x4096 .f32) : FVec Ideal S4x1x128 .f32 :=
  matmul dot_S4x1x4096_S4x4096x128_S4x1x128_2_1_1_2_0_0 none (truncf .bf16 (weightsV (expV (scoresV x0 x1 x3))) bitsLt_bf16_f32) (rowsOf x2)
    (constant S4x1x128 .f32 0x00000000#32)

variable (x0 : Vec Ideal S1x4x1x128 .f32) (x1 x2 : Vec Ideal S1x4x4096x128 .f32) (x3 : Vec Ideal S1x1x1x4096 .f32)

/-- The body's one stored value is the last stage with the unit axis put back. -/
theorem payload_eq : k0_pay1 (F := Ideal) x0 x1 x2 x3 = shapeCast S1x4x1x128 (outV x0 x1 x2 x3) shapeCasts_S4x1x128_S1x4x1x128 := rfl

/-! ## The layout steps at an index -/

theorem scaledQ_apply (h : Fin 4) (d : Fin 128) : scaledQ x0 (ix3 h (0 : Fin 1) d) = blkQ x0 h d * scale := by
  show shapeCast S4x1x128 x0 shapeCasts_S1x4x1x128_S4x1x128 (ix3 h (0 : Fin 1) d) * Ideal.ofBits .f32 0x3DB504F3#32 = _
  rw [shapeCast_1abc_abc_apply]

theorem rowsOf_apply (x : Vec Ideal S1x4x4096x128 .f32) (h : Fin 4) (s : Fin 4096) (d : Fin 128) : rowsOf x (ix3 h s d) = blkKV x h s d := by
  show shapeCast S4x4096x128 x shapeCasts_S1x4x4096x128_S4x4096x128 (ix3 h s d) = _
  rw [shapeCast_1abc_abc_apply]

/-- The mask row, broadcast over the heads, read at head `h` and key `s`. -/
theorem maskRow_apply (h : Fin 4) (s : Fin 4096) :
    broadcastTo S4x1x4096 (shapeCast S1x1x4096 x3 shapeCasts_S1x1x1x4096_S1x1x4096) broadcasts_S1x1x4096_S4x1x4096 (ix3 h (0 : Fin 1) s)
      = blkM x3 s := by
  rw [broadcastTo_apply _ broadcasts_S1x1x4096_S4x1x4096 (ix3 h (0 : Fin 1) s) (ix3 (0 : Fin 1) (0 : Fin 1) s) (fun a => match a with
    | ⟨0, _⟩ => by show (0 : Nat) = if (1 : Nat) = 1 then 0 else h.val; rw [if_pos rfl]
    | ⟨1, _⟩ => by show (0 : Nat) = if (1 : Nat) = 1 then 0 else 0; rw [if_pos rfl]
    | ⟨2, _⟩ => by show s.val = if (4096 : Nat) = 1 then 0 else s.val; rw [if_neg (by decide)]), shapeCast_1abc_abc_apply]

/-- A per-head column [4, 1], given a trailing unit axis and broadcast over the keys, read at head `h` and key `s`. -/
theorem column_apply (v : FVec Ideal S4x1 .f32) (h : Fin 4) (s : Fin 4096) :
    broadcastTo S4x1x4096 (shapeCast S4x1x1 v shapeCasts_S4x1_S4x1x1) broadcasts_S4x1x1_S4x1x4096 (ix3 h (0 : Fin 1) s) = v (ix2 h (0 : Fin 1)) := by
  rw [broadcastTo_apply _ broadcasts_S4x1x1_S4x1x4096 (ix3 h (0 : Fin 1) s) (ix3 h (0 : Fin 1) (0 : Fin 1)) (fun a => match a with
    | ⟨0, _⟩ => by show h.val = if (4 : Nat) = 1 then 0 else h.val; rw [if_neg (by decide)]
    | ⟨1, _⟩ => by show (0 : Nat) = if (1 : Nat) = 1 then 0 else 0; rw [if_pos rfl]
    | ⟨2, _⟩ => by show (0 : Nat) = if (1 : Nat) = 1 then 0 else s.val; rw [if_pos rfl])]
  exact shapeCast_apply v shapeCasts_S4x1_S4x1x1 _ _ (by
    rw [Shape.rowMajor_val_two, Shape.rowMajor_val_three]
    show h.val * 1 + 0 = (h.val * 1 + 0) * 1 + 0
    omega)

/-- A reduced index (h, 0) with key `k` put back is (h, 0, k). -/
theorem lift_keys (h : Fin 4) (k : Fin (S4x1x4096.size 2)) :
    reduces_S4x1x4096_S4x1.lift (ix2 h (0 : Fin 1)) k = ix3 h (0 : Fin 1) (⟨k.val, k.isLt⟩ : Fin 4096) := by
  funext c; apply Fin.ext
  fin_cases c <;> rfl

/-! ## Where the two products read their operands -/

theorem lhs1_0 (i : S4x1x4096.Idx) (q : dot_S4x1x128_S4x4096x128_S4x1x4096_2_2_1_1_0_0.contr.Idx) :
    (dot_S4x1x128_S4x4096x128_S4x1x4096_2_2_1_1_0_0.lhsIdx i q 0).val = (i 0).val := by
  unfold DotDims.lhsIdx
  rw [dif_pos (show (0 : Fin S4x1x128.rank) ∈ dot_S4x1x128_S4x4096x128_S4x1x4096_2_2_1_1_0_0.lhsBatch by decide)]
  rfl
theorem lhs1_1 (i : S4x1x4096.Idx) (q : dot_S4x1x128_S4x4096x128_S4x1x4096_2_2_1_1_0_0.contr.Idx) :
    (dot_S4x1x128_S4x4096x128_S4x1x4096_2_2_1_1_0_0.lhsIdx i q 1).val = (i 1).val := by
  unfold DotDims.lhsIdx
  rw [dif_neg (show ¬(1 : Fin S4x1x128.rank) ∈ dot_S4x1x128_S4x4096x128_S4x1x4096_2_2_1_1_0_0.lhsBatch by decide), dif_pos (show (1 : Fin S4x1x128.rank) ∈ dot_S4x1x128_S4x4096x128_S4x1x4096_2_2_1_1_0_0.lhsNonContracting by decide)]
  rfl
theorem lhs1_2 (i : S4x1x4096.Idx) (q : dot_S4x1x128_S4x4096x128_S4x1x4096_2_2_1_1_0_0.contr.Idx) :
    (dot_S4x1x128_S4x4096x128_S4x1x4096_2_2_1_1_0_0.lhsIdx i q 2).val = (q ⟨0, by decide⟩).val :=
  dot_S4x1x128_S4x4096x128_S4x1x4096_2_2_1_1_0_0.lhsIdx_val_of_single rfl i q
theorem rhs1_0 (i : S4x1x4096.Idx) (q : dot_S4x1x128_S4x4096x128_S4x1x4096_2_2_1_1_0_0.contr.Idx) :
    (dot_S4x1x128_S4x4096x128_S4x1x4096_2_2_1_1_0_0.rhsIdx i q 0).val = (i 0).val := by
  unfold DotDims.rhsIdx
  rw [dif_pos (show (0 : Fin S4x4096x128.rank) ∈ dot_S4x1x128_S4x4096x128_S4x1x4096_2_2_1_1_0_0.rhsBatch by decide)]
  rfl
theorem rhs1_1 (i : S4x1x4096.Idx) (q : dot_S4x1x128_S4x4096x128_S4x1x4096_2_2_1_1_0_0.contr.Idx) :
    (dot_S4x1x128_S4x4096x128_S4x1x4096_2_2_1_1_0_0.rhsIdx i q 1).val = (i 2).val := by
  unfold DotDims.rhsIdx
  rw [dif_neg (show ¬(1 : Fin S4x4096x128.rank) ∈ dot_S4x1x128_S4x4096x128_S4x1x4096_2_2_1_1_0_0.rhsBatch by decide), dif_pos (show (1 : Fin S4x4096x128.rank) ∈ dot_S4x1x128_S4x4096x128_S4x1x4096_2_2_1_1_0_0.rhsNonContracting by decide)]
  rfl
theorem rhs1_2 (i : S4x1x4096.Idx) (q : dot_S4x1x128_S4x4096x128_S4x1x4096_2_2_1_1_0_0.contr.Idx) :
    (dot_S4x1x128_S4x4096x128_S4x1x4096_2_2_1_1_0_0.rhsIdx i q 2).val = (q ⟨0, by decide⟩).val :=
  dot_S4x1x128_S4x4096x128_S4x1x4096_2_2_1_1_0_0.rhsIdx_val_of_single rfl i q

theorem lhs2_0 (i : S4x1x128.Idx) (q : dot_S4x1x4096_S4x4096x128_S4x1x128_2_1_1_2_0_0.contr.Idx) :
    (dot_S4x1x4096_S4x4096x128_S4x1x128_2_1_1_2_0_0.lhsIdx i q 0).val = (i 0).val := by
  unfold DotDims.lhsIdx
  rw [dif_pos (show (0 : Fin S4x1x4096.rank) ∈ dot_S4x1x4096_S4x4096x128_S4x1x128_2_1_1_2_0_0.lhsBatch by decide)]
  rfl
theorem lhs2_1 (i : S4x1x128.Idx) (q : dot_S4x1x4096_S4x4096x128_S4x1x128_2_1_1_2_0_0.contr.Idx) :
    (dot_S4x1x4096_S4x4096x128_S4x1x128_2_1_1_2_0_0.lhsIdx i q 1).val = (i 1).val := by
  unfold DotDims.lhsIdx
  rw [dif_neg (show ¬(1 : Fin S4x1x4096.rank) ∈ dot_S4x1x4096_S4x4096x128_S4x1x128_2_1_1_2_0_0.lhsBatch by decide), dif_pos (show (1 : Fin S4x1x4096.rank) ∈ dot_S4x1x4096_S4x4096x128_S4x1x128_2_1_1_2_0_0.lhsNonContracting by decide)]
  rfl
theorem lhs2_2 (i : S4x1x128.Idx) (q : dot_S4x1x4096_S4x4096x128_S4x1x128_2_1_1_2_0_0.contr.Idx) :
    (dot_S4x1x4096_S4x4096x128_S4x1x128_2_1_1_2_0_0.lhsIdx i q 2).val = (q ⟨0, by decide⟩).val :=
  dot_S4x1x4096_S4x4096x128_S4x1x128_2_1_1_2_0_0.lhsIdx_val_of_single rfl i q
theorem rhs2_0 (i : S4x1x128.Idx) (q : dot_S4x1x4096_S4x4096x128_S4x1x128_2_1_1_2_0_0.contr.Idx) :
    (dot_S4x1x4096_S4x4096x128_S4x1x128_2_1_1_2_0_0.rhsIdx i q 0).val = (i 0).val := by
  unfold DotDims.rhsIdx
  rw [dif_pos (show (0 : Fin S4x4096x128.rank) ∈ dot_S4x1x4096_S4x4096x128_S4x1x128_2_1_1_2_0_0.rhsBatch by decide)]
  rfl
theorem rhs2_1 (i : S4x1x128.Idx) (q : dot_S4x1x4096_S4x4096x128_S4x1x128_2_1_1_2_0_0.contr.Idx) :
    (dot_S4x1x4096_S4x4096x128_S4x1x128_2_1_1_2_0_0.rhsIdx i q 1).val = (q ⟨0, by decide⟩).val :=
  dot_S4x1x4096_S4x4096x128_S4x1x128_2_1_1_2_0_0.rhsIdx_val_of_single rfl i q
theorem rhs2_2 (i : S4x1x128.Idx) (q : dot_S4x1x4096_S4x4096x128_S4x1x128_2_1_1_2_0_0.contr.Idx) :
    (dot_S4x1x4096_S4x4096x128_S4x1x128_2_1_1_2_0_0.rhsIdx i q 2).val = (i 2).val := by
  unfold DotDims.rhsIdx
  rw [dif_neg (show ¬(2 : Fin S4x4096x128.rank) ∈ dot_S4x1x4096_S4x4096x128_S4x1x128_2_1_1_2_0_0.rhsBatch by decide), dif_pos (show (2 : Fin S4x4096x128.rank) ∈ dot_S4x1x4096_S4x4096x128_S4x1x128_2_1_1_2_0_0.rhsNonContracting by decide)]
  rfl

/-! ## The stages at an index -/

/-- Head `h`'s score of key `s`. -/
theorem scoresV_apply (h : Fin 4) (s : Fin 4096) :
    scoresV x0 x1 x3 (ix3 h (0 : Fin 1) s) = score (blkQ x0 h) (blkKV x1 h) (blkM x3) s := by
  unfold scoresV score
  rw [addf_apply, maskRow_apply]
  refine congrArg (· + blkM x3 s) ?_
  simp only [matmul]
  rw [Ideal.matmul_constant_zero_apply, ← Equiv.sum_comp (contrEquiv1 dot_S4x1x128_S4x4096x128_S4x1x4096_2_2_1_1_0_0 128 rfl rfl).symm]
  refine Finset.sum_congr rfl fun k _ => ?_
  have hk := contrEquiv1_symm_val dot_S4x1x128_S4x4096x128_S4x1x4096_2_2_1_1_0_0 128 rfl rfl k
  have el : dot_S4x1x128_S4x4096x128_S4x1x4096_2_2_1_1_0_0.lhsIdx (ix3 h (0 : Fin 1) s) ((contrEquiv1 dot_S4x1x128_S4x4096x128_S4x1x4096_2_2_1_1_0_0 128 rfl rfl).symm k) = ix3 h (0 : Fin 1) k := funext fun a => Fin.ext (by
    match a with
    | ⟨0, _⟩ => exact lhs1_0 _ _
    | ⟨1, _⟩ => exact lhs1_1 _ _
    | ⟨2, _⟩ => exact (lhs1_2 _ _).trans hk)
  have er : dot_S4x1x128_S4x4096x128_S4x1x4096_2_2_1_1_0_0.rhsIdx (ix3 h (0 : Fin 1) s) ((contrEquiv1 dot_S4x1x128_S4x4096x128_S4x1x4096_2_2_1_1_0_0 128 rfl rfl).symm k) = ix3 h s k := funext fun a => Fin.ext (by
    match a with
    | ⟨0, _⟩ => exact rhs1_0 _ _
    | ⟨1, _⟩ => exact rhs1_1 _ _
    | ⟨2, _⟩ => exact (rhs1_2 _ _).trans hk)
  rw [el, er, scaledQ_apply, rowsOf_apply]

/-- Head `h`'s top, for scores that are `x` on that head. -/
theorem topV_apply (sc : FVec Ideal S4x1x4096 .f32) (x : Fin 4096 → EReal) (h : Fin 4) (hx : ∀ s, sc (ix3 h (0 : Fin 1) s) = x s) :
    topV sc (ix2 h (0 : Fin 1)) = rowMax x := by
  unfold topV rowMax
  rw [maximumf_apply]
  refine congrArg (max negInf) ?_
  refine (Ideal.multiReduction_maximumf_single sc 0xFF800000#32 reduces_S4x1x4096_S4x1 (.inl rfl) rfl (ix2 h (0 : Fin 1))).trans ?_
  have hf : (sc ∘ reduces_S4x1x4096_S4x1.lift (ix2 h (0 : Fin 1))) = fun k : Fin 4096 => x k := funext fun k => by
    show sc (reduces_S4x1x4096_S4x1.lift (ix2 h (0 : Fin 1)) k) = _
    rw [lift_keys, hx]
    rfl
  rw [hf]
  rfl

/-- Head `h`'s exponentials. -/
theorem expV_apply (sc : FVec Ideal S4x1x4096 .f32) (x : Fin 4096 → EReal) (h : Fin 4) (hx : ∀ s, sc (ix3 h (0 : Fin 1) s) = x s) (s : Fin 4096) :
    expV sc (ix3 h (0 : Fin 1) s) = unnorm x s := by
  unfold expV unnorm
  show Ideal.exp (sc (ix3 h (0 : Fin 1) s) - broadcastTo S4x1x4096 (shapeCast S4x1x1 (topV sc) shapeCasts_S4x1_S4x1x1) broadcasts_S4x1x1_S4x1x4096 (ix3 h (0 : Fin 1) s)) = _
  rw [column_apply, topV_apply sc x h hx, hx]

/-- Head `h`'s sum, for a vector that is `y` on that head. -/
theorem totalV_apply (e : FVec Ideal S4x1x4096 .f32) (y : Fin 4096 → EReal) (h : Fin 4) (hy : ∀ s, e (ix3 h (0 : Fin 1) s) = y s) :
    totalV e (ix2 h (0 : Fin 1)) = ∑ r : Fin 4096, y r := by
  unfold totalV
  refine (Ideal.multiReduction_add_single e 0x00000000#32 reduces_S4x1x4096_S4x1 (.inl rfl) rfl (ix2 h (0 : Fin 1))).trans ?_
  refine Finset.sum_congr rfl fun k _ => ?_
  rw [lift_keys, hy]
  rfl

/-- Head `h`'s quotients. -/
theorem weightsV_apply (e : FVec Ideal S4x1x4096 .f32) (y : Fin 4096 → EReal) (h : Fin 4) (hy : ∀ s, e (ix3 h (0 : Fin 1) s) = y s) (s : Fin 4096) :
    weightsV e (ix3 h (0 : Fin 1) s) = Ideal.div (y s) (∑ r : Fin 4096, y r) := by
  unfold weightsV
  rw [divf_apply, column_apply, totalV_apply e y h hy, hy]

/-- Head `h`'s attended value. -/
theorem outV_apply (h : Fin 4) (d : Fin 128) :
    outV x0 x1 x2 x3 (ix3 h (0 : Fin 1) d) = attend (blkQ x0 h) (blkKV x1 h) (blkKV x2 h) (blkM x3) d := by
  unfold outV attend
  simp only [matmul]
  rw [Ideal.matmul_constant_zero_apply, ← Equiv.sum_comp (contrEquiv1 dot_S4x1x4096_S4x4096x128_S4x1x128_2_1_1_2_0_0 4096 rfl rfl).symm]
  refine Finset.sum_congr rfl fun k _ => ?_
  have hk := contrEquiv1_symm_val dot_S4x1x4096_S4x4096x128_S4x1x128_2_1_1_2_0_0 4096 rfl rfl k
  have el : dot_S4x1x4096_S4x4096x128_S4x1x128_2_1_1_2_0_0.lhsIdx (ix3 h (0 : Fin 1) d) ((contrEquiv1 dot_S4x1x4096_S4x4096x128_S4x1x128_2_1_1_2_0_0 4096 rfl rfl).symm k) = ix3 h (0 : Fin 1) k := funext fun a => Fin.ext (by
    match a with
    | ⟨0, _⟩ => exact lhs2_0 _ _
    | ⟨1, _⟩ => exact lhs2_1 _ _
    | ⟨2, _⟩ => exact (lhs2_2 _ _).trans hk)
  have er : dot_S4x1x4096_S4x4096x128_S4x1x128_2_1_1_2_0_0.rhsIdx (ix3 h (0 : Fin 1) d) ((contrEquiv1 dot_S4x1x4096_S4x4096x128_S4x1x128_2_1_1_2_0_0 4096 rfl rfl).symm k) = ix3 h k d := funext fun a => Fin.ext (by
    match a with
    | ⟨0, _⟩ => exact rhs2_0 _ _
    | ⟨1, _⟩ => exact (rhs2_1 _ _).trans hk
    | ⟨2, _⟩ => exact rhs2_2 _ _)
  rw [el, er, rowsOf_apply]
  refine congrArg (· * blkKV x2 h k d) ?_
  show weightsV (expV (scoresV x0 x1 x3)) (ix3 h (0 : Fin 1) k) = _
  rw [weightsV_apply _ (unnorm (score (blkQ x0 h) (blkKV x1 h) (blkM x3))) h
    (fun s => expV_apply _ _ h (fun s' => scoresV_apply x0 x1 x3 h s') s)]
  rfl

/-- THE BODY'S VALUE: at (0, h, 0, d) the stored block holds head `h`'s attended value at coordinate `d`. -/
theorem payload_apply (h : Fin 4) (d : Fin 128) :
    k0_pay1 (F := Ideal) x0 x1 x2 x3 (ix4 (0 : Fin 1) h (0 : Fin 1) d) = attend (blkQ x0 h) (blkKV x1 h) (blkKV x2 h) (blkM x3) d := by
  rw [payload_eq, shapeCast_abc_1abc_apply, outV_apply]

end Cert.Attention.Body

end
-- ==== Proof.KernelValue.lean ====
/-
  The kernel's result array is `attention` of its argument arrays.

  Grid point (b, g) of the 8 × 8 grid works on batch entry b and on the four heads 4g, …, 4g + 3: its query, key and
  value blocks are those heads' rows of batch entry b, its mask block is batch entry b's mask row (the same for all
  eight g), and it writes back the [1, 4, 1, 128] block of the result at (b, 4g … 4g + 3). Head h of the body's value is
  `attend` of head h's rows of the blocks, which are head 4g + h's rows of the arrays: so what each point writes back is
  its block of `attention` of the whole arrays. The 64 blocks tile the result, so the result ends as that function.
-/
import proofs.«410718_j54391465836544_3_alg».proof.Proof.Gen.KernelIdeal.Value
import proofs.«410718_j54391465836544_3_alg».proof.Proof.BodyValue

noncomputable section

open scoped BigOperators

namespace Cert.Attention.Kernel

open Idealize.ShloMosaic Idealize.ShloMosaic.TcCoe Idealize.SL.Sem Idealize.ShloMosaic.ValueIdx
open Cert.KernelIdeal Cert.KernelIdeal.Gen Cert.Attention
open Idealize.ShloMosaic.Pipeline (Dat)

variable (m : (ℓ : Loc nD τ sig) → Buf (Elt Ideal) ℓ) (ρ : Dev nD → PrngReg)

/-! ## The arrays and the blocks, at their literal types -/

abbrev argQ (c : Dev nD) : Vec Ideal S8x32x1x128 .f32 := V m c main_arg0
abbrev argK (c : Dev nD) : Vec Ideal S8x32x4096x128 .f32 := V m c main_arg1
abbrev argV (c : Dev nD) : Vec Ideal S8x32x4096x128 .f32 := V m c main_arg2
abbrev argM (c : Dev nD) : Vec Ideal S8x1x1x4096 .f32 := V m c main_arg3

abbrev blockQ (c : Dev nD) (t : Fin cfg0.N) : Vec Ideal S1x4x1x128 .f32 := iblk m c 0 t
abbrev blockK (c : Dev nD) (t : Fin cfg0.N) : Vec Ideal S1x4x4096x128 .f32 := iblk m c 1 t
abbrev blockV (c : Dev nD) (t : Fin cfg0.N) : Vec Ideal S1x4x4096x128 .f32 := iblk m c 2 t
abbrev blockM (c : Dev nD) (t : Fin cfg0.N) : Vec Ideal S1x1x1x4096 .f32 := iblk m c 3 t

theorem zeros : (![0, 0, 0, 0] : Fin 4 → Nat) = fun _ => 0 := funext fun a => by fin_cases a <;> rfl

/-! ## The index maps, decided over the 64 grid points -/

/-- The result's block index is (b, g, 0, 0) with b and g below 8. -/
theorem index_out : ∀ t : Fin cfg0.N, win0_4.index t (0 : Fin 4) < 8 ∧ win0_4.index t (1 : Fin 4) < 8
    ∧ win0_4.index t (2 : Fin 4) = 0 ∧ win0_4.index t (3 : Fin 4) = 0 :=
  (by decide +kernel : ∀ t : Fin grid0.N, _)

/-- The query block moves with the result's. -/
theorem index_q : ∀ t : Fin cfg0.N, win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0 :=
  (by decide +kernel : ∀ t : Fin grid0.N, _)

/-- So does the key block, -/
theorem index_k : ∀ t : Fin cfg0.N, win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0 :=
  (by decide +kernel : ∀ t : Fin grid0.N, _)

/-- and the value block. -/
theorem index_v : ∀ t : Fin cfg0.N, win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0 :=
  (by decide +kernel : ∀ t : Fin grid0.N, _)

/-- The mask block follows the batch entry only. -/
theorem index_m : ∀ t : Fin cfg0.N, win0_3.index t (0 : Fin 4) = win0_4.index t (0 : Fin 4) ∧ win0_3.index t (1 : Fin 4) = 0
    ∧ win0_3.index t (2 : Fin 4) = 0 ∧ win0_3.index t (3 : Fin 4) = 0 :=
  (by decide +kernel : ∀ t : Fin grid0.N, _)

/-- Every (b, g) is some point's block index. -/
theorem index_onto : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])

/-- The batch entry point `t` works on. -/
def batchOf (t : Fin cfg0.N) : Fin 8 := ⟨win0_4.index t (0 : Fin 4), (index_out t).1⟩

/-- The head that head `h` of point `t`'s blocks is. -/
def headOf (t : Fin cfg0.N) (h : Fin 4) : Fin 32 :=
  ⟨win0_4.index t (1 : Fin 4) * 4 + h.val, by have := (index_out t).2.1; have := h.isLt; omega⟩

/-! ## Where the blocks sit in the arrays -/

/-- Head `h`, coordinate `d` of the result's block at `t` is (batchOf t, headOf t h, 0, d) of the result. -/
theorem out_emb (t : Fin cfg0.N) (h : Fin 4) (d : Fin 128) :
    ((cfg0.win 4).blk t).view.emb (ix4 (0 : Fin 1) h (0 : Fin 1) d) = ix4 (batchOf t) (headOf t h) (0 : Fin 1) d := by
  obtain ⟨-, -, e2, e3⟩ := index_out t
  funext a; apply Fin.ext
  match a with
  | ⟨0, _⟩ => show win0_4.index t (0 : Fin 4) * 1 + 1 * 0 = win0_4.index t (0 : Fin 4); omega
  | ⟨1, _⟩ => show win0_4.index t (1 : Fin 4) * 4 + 1 * h.val = win0_4.index t (1 : Fin 4) * 4 + h.val; omega
  | ⟨2, _⟩ => show win0_4.index t (2 : Fin 4) * 1 + 1 * 0 = 0; omega
  | ⟨3, _⟩ => show win0_4.index t (3 : Fin 4) * 128 + 1 * d.val = d.val; omega

/-- Head `h`'s query row of the block is head `headOf t h`'s query row of the array. -/
theorem blockQ_row (c : Dev nD) (t : Fin cfg0.N) (h : Fin 4) :
    Body.blkQ (blockQ m c t) h = rowQ (argQ m c) (batchOf t) (headOf t h) := by
  funext d
  show V m c main_arg0 (((cfg0.win 0).blk t).view.emb (ix4 (0 : Fin 1) h (0 : Fin 1) d)) = V m c main_arg0 (ix4 (batchOf t) (headOf t h) (0 : Fin 1) d)
  obtain ⟨e0, e1, e2, e3⟩ := index_q t
  refine congrArg (V m c main_arg0) (funext fun a => Fin.ext ?_)
  match a with
  | ⟨0, _⟩ => show win0_0.index t (0 : Fin 4) * 1 + 1 * 0 = win0_4.index t (0 : Fin 4); omega
  | ⟨1, _⟩ => show win0_0.index t (1 : Fin 4) * 4 + 1 * h.val = win0_4.index t (1 : Fin 4) * 4 + h.val; omega
  | ⟨2, _⟩ => show win0_0.index t (2 : Fin 4) * 1 + 1 * 0 = 0; omega
  | ⟨3, _⟩ => show win0_0.index t (3 : Fin 4) * 128 + 1 * d.val = d.val; omega

/-- Head `h`'s key rows of the block are head `headOf t h`'s key rows of the array. -/
theorem blockK_rows (c : Dev nD) (t : Fin cfg0.N) (h : Fin 4) :
    Body.blkKV (blockK m c t) h = rowsKV (argK m c) (batchOf t) (headOf t h) := by
  funext s d
  show V m c main_arg1 (((cfg0.win 1).blk t).view.emb (ix4 (0 : Fin 1) h s d)) = V m c main_arg1 (ix4 (batchOf t) (headOf t h) s d)
  obtain ⟨e0, e1, e2, e3⟩ := index_k t
  refine congrArg (V m c main_arg1) (funext fun a => Fin.ext ?_)
  match a with
  | ⟨0, _⟩ => show win0_1.index t (0 : Fin 4) * 1 + 1 * 0 = win0_4.index t (0 : Fin 4); omega
  | ⟨1, _⟩ => show win0_1.index t (1 : Fin 4) * 4 + 1 * h.val = win0_4.index t (1 : Fin 4) * 4 + h.val; omega
  | ⟨2, _⟩ => show win0_1.index t (2 : Fin 4) * 4096 + 1 * s.val = s.val; omega
  | ⟨3, _⟩ => show win0_1.index t (3 : Fin 4) * 128 + 1 * d.val = d.val; omega

/-- The same for the values. -/
theorem blockV_rows (c : Dev nD) (t : Fin cfg0.N) (h : Fin 4) :
    Body.blkKV (blockV m c t) h = rowsKV (argV m c) (batchOf t) (headOf t h) := by
  funext s d
  show V m c main_arg2 (((cfg0.win 2).blk t).view.emb (ix4 (0 : Fin 1) h s d)) = V m c main_arg2 (ix4 (batchOf t) (headOf t h) s d)
  obtain ⟨e0, e1, e2, e3⟩ := index_v t
  refine congrArg (V m c main_arg2) (funext fun a => Fin.ext ?_)
  match a with
  | ⟨0, _⟩ => show win0_2.index t (0 : Fin 4) * 1 + 1 * 0 = win0_4.index t (0 : Fin 4); omega
  | ⟨1, _⟩ => show win0_2.index t (1 : Fin 4) * 4 + 1 * h.val = win0_4.index t (1 : Fin 4) * 4 + h.val; omega
  | ⟨2, _⟩ => show win0_2.index t (2 : Fin 4) * 4096 + 1 * s.val = s.val; omega
  | ⟨3, _⟩ => show win0_2.index t (3 : Fin 4) * 128 + 1 * d.val = d.val; omega

/-- The mask block's row is the batch entry's mask row. -/
theorem blockM_row (c : Dev nD) (t : Fin cfg0.N) :
    Body.blkM (blockM m c t) = rowM (argM m c) (batchOf t) := by
  funext s
  show V m c main_arg3 (((cfg0.win 3).blk t).view.emb (ix4 (0 : Fin 1) (0 : Fin 1) (0 : Fin 1) s)) = V m c main_arg3 (ix4 (batchOf t) (0 : Fin 1) (0 : Fin 1) s)
  obtain ⟨e0, e1, e2, e3⟩ := index_m t
  refine congrArg (V m c main_arg3) (funext fun a => Fin.ext ?_)
  match a with
  | ⟨0, _⟩ => show win0_3.index t (0 : Fin 4) * 1 + 1 * 0 = win0_4.index t (0 : Fin 4); omega
  | ⟨1, _⟩ => show win0_3.index t (1 : Fin 4) * 1 + 1 * 0 = 0; omega
  | ⟨2, _⟩ => show win0_3.index t (2 : Fin 4) * 1 + 1 * 0 = 0; omega
  | ⟨3, _⟩ => show win0_3.index t (3 : Fin 4) * 4096 + 1 * s.val = s.val; omega

/-! ## What a point writes back, and the whole array -/

/-- WHAT POINT `t` WRITES BACK is its block of `attention` of the argument arrays. -/
theorem flushed_eq (c : Dev nD) (t : Fin cfg0.N) :
    (dats m 0 c).flushed 4 t
      = ((cfg0.win 4).blk t).view.read (Elt Ideal) (attention (argQ m c) (argK m c) (argV m c) (argM m c)) := by
  rw [Cert.KernelIdeal.Value.flushed4]
  unfold out0_4
  rw [View.canon_unit_zero zeros]
  simp only [View.ld_unit_zero (S := S1x4x1x128) zeros, View.ld_unit_zero (S := S1x4x4096x128) zeros, View.ld_unit_zero (S := S1x1x1x4096) zeros]
  funext j
  show k0_pay1 (F := Ideal) (blockQ m c t) (blockK m c t) (blockV m c t) (blockM m c t) j
    = attention (argQ m c) (argK m c) (argV m c) (argM m c) (((cfg0.win 4).blk t).view.emb j)
  obtain ⟨u, h, z, d, rfl⟩ : ∃ (u : Fin 1) (h : Fin 4) (z : Fin 1) (d : Fin 128), j = ix4 u h z d :=
    ⟨j 0, j 1, j 2, j 3, eq_ix4 j⟩
  obtain rfl : u = 0 := Subsingleton.elim _ _
  obtain rfl : z = 0 := Subsingleton.elim _ _
  refine (Body.payload_apply (blockQ m c t) (blockK m c t) (blockV m c t) (blockM m c t) h d).trans ?_
  rw [out_emb, attention_ix4, blockQ_row, blockK_rows, blockV_rows, blockM_row]
  rfl

/-- An index of the result is in point `t`'s block iff each coordinate is in the block's range on its axis. -/
theorem mem_block (t : Fin cfg0.N) (i : S8x32x1x128.Idx) :
    i ∈ ((cfg0.win 4).blk t).view.set ↔ ∀ a : Fin 4, win0_4.index t a * S1x4x1x128.size a ≤ (i a).val ∧ (i a).val < win0_4.index t a * S1x4x1x128.size a + S1x4x1x128.size a := by
  show i ∈ ((View.whole main_v0).slice (win0_4.rect t)).set ↔ _
  rw [View.set_slice_whole, Rect.mem_set_unit]
  exact Iff.rfl

/-- Every index of the result is in the block of the point with b its batch entry and g its head divided by four. -/
theorem covered (i : S8x32x1x128.Idx) : ∃ t : Fin cfg0.N, (cfg0.win 4).flush t = true ∧ i ∈ ((cfg0.win 4).blk t).view.set := by
  have hi0 : (i 0).val < 8 := (i 0).isLt
  have hi1 : (i 1).val < 32 := (i 1).isLt
  have hi2 : (i 2).val < 1 := (i 2).isLt
  have hi3 : (i 3).val < 128 := (i 3).isLt
  obtain ⟨t, ht⟩ := index_onto ⟨(i 0).val, hi0⟩ ⟨(i 1).val / 4, by omega⟩
  have q0 : win0_4.index t (0 : Fin 4) = (i 0).val := congrFun ht 0
  have q1 : win0_4.index t (1 : Fin 4) = (i 1).val / 4 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 1 ≤ (i 2).val ∧ (i 2).val < win0_4.index t (2 : Fin 4) * 1 + 1; omega
  | ⟨3, _⟩ => show win0_4.index t (3 : Fin 4) * 128 ≤ (i 3).val ∧ (i 3).val < win0_4.index t (3 : Fin 4) * 128 + 128; omega

/-- THE RESULT ARRAY after the run. -/
theorem result_eq (c : Dev nD) :
    (dats m 0 c).arrAt 4 cfg0.N = attention (argQ m c) (argK m c) (argV m c) (argM m c) :=
  (dats m 0 c).arrAt_eq_of_cover 4 _ (fun t _ => flushed_eq m c t) covered

/-- The kernel's run: the result ends as `attention` of the arguments as launched, the arguments unchanged. -/
theorem run : θ_run defs (onTc (τ := τ) (main (F := Ideal))) ⟨m, fun _ => 0, ρ⟩ fun r => ∀ c : Dev nD,
      r.2.mem ((c : Thread nD τ).loc main_v0) = attention (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩)
    (Cert.KernelIdeal.Value.run_blocks m ρ)

end Cert.Attention.Kernel

end
-- ==== Proof.ReferenceValue.lean ====
/-
  The reference program's result is `attention` of its four arguments.

  The reference is twenty-one host operations; read one operation at a time at an index, its stages are the
  rows of `Cert.Attention`: the scaled dot products plus the mask are the scores, the reduction by maximum from −∞
  (and the maximum with −∞ once more) the row's top, then the exponentials, their sum from zero, the quotient, and
  the weighted sum of the value rows.
-/
import proofs.«410718_j54391465836544_3_alg».proof.Proof.Gen.ReferenceIdeal.Read
import proofs.«410718_j54391465836544_3_alg».proof.Proof.Attention
import Idealize.ShloMosaic.PureOps.Ideal.Laws

noncomputable section

open scoped BigOperators

namespace Cert.Attention.Reference

open Idealize.ShloMosaic Idealize.ShloMosaic.ValueIdx
open Cert.ReferenceIdeal Cert.ReferenceIdeal.Gen Cert.ReferenceIdeal.Read Cert.Attention

variable (x0 : (⟨S8x32x1x128, .f32⟩ : BufTy).Contents (Elt Ideal)) (x1 x2 : (⟨S8x32x4096x128, .f32⟩ : BufTy).Contents (Elt Ideal))
  (x3 : (⟨S8x1x1x4096, .f32⟩ : BufTy).Contents (Elt Ideal))

/-! ## Where each operation reads its operands, by coordinates -/

theorem lidx_v2 (b : Fin 8) (h : Fin 32) (s : Fin 4096) (k : Fin 128) :
    lidx_main_v2 (ix4 b h (0 : Fin 1) s) k = ix4 b h (0 : Fin 1) k :=
  funext fun a => Fin.ext (by match a with | ⟨0, _⟩ => rfl | ⟨1, _⟩ => rfl | ⟨2, _⟩ => rfl | ⟨3, _⟩ => rfl)

theorem ridx_v2 (b : Fin 8) (h : Fin 32) (s : Fin 4096) (k : Fin 128) :
    ridx_main_v2 (ix4 b h (0 : Fin 1) s) k = ix4 b h s k :=
  funext fun a => Fin.ext (by match a with | ⟨0, _⟩ => rfl | ⟨1, _⟩ => rfl | ⟨2, _⟩ => rfl | ⟨3, _⟩ => rfl)

theorem idx_v3 (b : Fin 8) (h : Fin 32) (s : Fin 4096) :
    idx_main_v3 (ix4 b h (0 : Fin 1) s) = ix4 b (0 : Fin 1) (0 : Fin 1) s :=
  funext fun a => Fin.ext (by match a with | ⟨0, _⟩ => rfl | ⟨1, _⟩ => rfl | ⟨2, _⟩ => rfl | ⟨3, _⟩ => rfl)

theorem idx_v9 (b : Fin 8) (h : Fin 32) (s : Fin 4096) :
    idx_main_v9 (ix4 b h (0 : Fin 1) s) = ix4 b h (0 : Fin 1) (0 : Fin 1) :=
  funext fun a => Fin.ext (by match a with | ⟨0, _⟩ => rfl | ⟨1, _⟩ => rfl | ⟨2, _⟩ => rfl | ⟨3, _⟩ => rfl)

theorem idx_v8 (b : Fin 8) (h : Fin 32) :
    idx_main_v8 (ix4 b h (0 : Fin 1) (0 : Fin 1)) = ix3 b h (0 : Fin 1) :=
  funext fun a => Fin.ext (by match a with | ⟨0, _⟩ => rfl | ⟨1, _⟩ => rfl | ⟨2, _⟩ => rfl)

theorem idx_v14 (b : Fin 8) (h : Fin 32) (s : Fin 4096) :
    idx_main_v14 (ix4 b h (0 : Fin 1) s) = ix4 b h (0 : Fin 1) (0 : Fin 1) :=
  funext fun a => Fin.ext (by match a with | ⟨0, _⟩ => rfl | ⟨1, _⟩ => rfl | ⟨2, _⟩ => rfl | ⟨3, _⟩ => rfl)

theorem idx_v13 (b : Fin 8) (h : Fin 32) :
    idx_main_v13 (ix4 b h (0 : Fin 1) (0 : Fin 1)) = ix3 b h (0 : Fin 1) :=
  funext fun a => Fin.ext (by match a with | ⟨0, _⟩ => rfl | ⟨1, _⟩ => rfl | ⟨2, _⟩ => rfl)

theorem idx_v12 (b : Fin 8) (h : Fin 32) (k : Fin 4096) :
    idx_main_v12 (ix3 b h (0 : Fin 1)) k = ix4 b h (0 : Fin 1) k :=
  funext fun a => Fin.ext (by match a with | ⟨0, _⟩ => rfl | ⟨1, _⟩ => rfl | ⟨2, _⟩ => rfl | ⟨3, _⟩ => rfl)

theorem lidx_v16 (b : Fin 8) (h : Fin 32) (d : Fin 128) (k : Fin 4096) :
    lidx_main_v16 (ix4 b h (0 : Fin 1) d) k = ix4 b h (0 : Fin 1) k :=
  funext fun a => Fin.ext (by match a with | ⟨0, _⟩ => rfl | ⟨1, _⟩ => rfl | ⟨2, _⟩ => rfl | ⟨3, _⟩ => rfl)

theorem ridx_v16 (b : Fin 8) (h : Fin 32) (d : Fin 128) (k : Fin 4096) :
    ridx_main_v16 (ix4 b h (0 : Fin 1) d) k = ix4 b h k d :=
  funext fun a => Fin.ext (by match a with | ⟨0, _⟩ => rfl | ⟨1, _⟩ => rfl | ⟨2, _⟩ => rfl | ⟨3, _⟩ => rfl)

/-- The key axis is the one the two reductions drop. -/
theorem dropsKeys : S8x32x1x4096.Reduces [3] S8x32x1 := by decide

/-- A reduced index (b, h, 0) with key `k` put back is (b, h, 0, k). -/
theorem lift_keys (b : Fin 8) (h : Fin 32) (k : Fin (S8x32x1x4096.size 3)) :
    dropsKeys.lift (ix3 b h (0 : Fin 1)) k = ix4 b h (0 : Fin 1) (⟨k.val, k.isLt⟩ : Fin 4096) := by
  funext c; apply Fin.ext
  fin_cases c <;> rfl

/-! ## The stages -/

/-- The sum of the scaled products plus the mask entry is the score. -/
theorem score_eq (b : Fin 8) (h : Fin 32) (s : Fin 4096) :
    val_main_v4 (F := Ideal) x0 x1 x3 (ix4 b h (0 : Fin 1) s) = score (rowQ x0 b h) (rowsKV x1 b h) (rowM x3 b) s := by
  rw [val_main_v4_apply, val_main_v2_apply, val_main_v3_apply, idx_v3, Ideal.addf_def]
  unfold score
  refine congrArg₂ (· + ·) (Finset.sum_congr rfl fun k _ => ?_) rfl
  rw [val_main_v1_apply, val_main_v0_apply, val_main_cst_apply, lidx_v2, ridx_v2]
  rfl

/-- The reduction by maximum over the keys from −∞, then the maximum with −∞, is the row's top. -/
theorem rowMax_eq (b : Fin 8) (h : Fin 32) :
    val_main_v7 (F := Ideal) x0 x1 x3 (ix3 b h (0 : Fin 1)) = rowMax (score (rowQ x0 b h) (rowsKV x1 b h) (rowM x3 b)) := by
  rw [val_main_v7_apply, val_main_v6_apply, val_main_cst_1_apply]
  unfold val_main_v5 rowMax
  rw [Host.reduce_eq_fold_single FloatOps.maximumf _ _ reducesTo_S8x32x1x4096_S8x32x1_d3 dropsKeys h_S_]
  have hf : (val_main_v4 (F := Ideal) x0 x1 x3 ∘ dropsKeys.lift (ix3 b h (0 : Fin 1)))
      = fun k : Fin 4096 => score (rowQ x0 b h) (rowsKV x1 b h) (rowM x3 b) k := funext fun k => by
    show val_main_v4 (F := Ideal) x0 x1 x3 (dropsKeys.lift (ix3 b h (0 : Fin 1)) k) = _
    rw [lift_keys, score_eq]
    rfl
  rw [hf]
  rfl

/-- The exponential of the score less the row's top. -/
theorem unnorm_eq (b : Fin 8) (h : Fin 32) (s : Fin 4096) :
    val_main_v11 (F := Ideal) x0 x1 x3 (ix4 b h (0 : Fin 1) s) = unnorm (score (rowQ x0 b h) (rowsKV x1 b h) (rowM x3 b)) s := by
  rw [val_main_v11_apply, val_main_v10_apply, val_main_v9_apply, idx_v9, val_main_v8_apply, idx_v8, rowMax_eq, score_eq]
  rfl

/-- The sum over the keys from zero is the row's total. -/
theorem total_eq (b : Fin 8) (h : Fin 32) :
    val_main_v12 (F := Ideal) x0 x1 x3 (ix3 b h (0 : Fin 1)) = ∑ r : Fin 4096, unnorm (score (rowQ x0 b h) (rowsKV x1 b h) (rowM x3 b)) r := by
  rw [val_main_v12_apply, val_main_cst_2_apply, Ideal.ofBits_def, Ideal.ofBits_zero_f32, zero_add]
  refine Finset.sum_congr rfl fun k _ => ?_
  rw [idx_v12, unnorm_eq]

/-- The quotient is the softmax weight. -/
theorem weight_eq (b : Fin 8) (h : Fin 32) (s : Fin 4096) :
    val_main_v15 (F := Ideal) x0 x1 x3 (ix4 b h (0 : Fin 1) s) = weight (score (rowQ x0 b h) (rowsKV x1 b h) (rowM x3 b)) s := by
  rw [val_main_v15_apply, val_main_v14_apply, idx_v14, val_main_v13_apply, idx_v13, total_eq, unnorm_eq]
  rfl

/-- The reference's last stage, the weights against the values, is `attention` of the arguments. -/
theorem result_eq : val_main_v16 (F := Ideal) x0 x1 x2 x3 = attention x0 x1 x2 x3 := by
  funext i
  obtain ⟨b, h, z, d, rfl⟩ : ∃ (b : Fin 8) (h : Fin 32) (z : Fin 1) (d : Fin 128), i = ix4 b h z d :=
    ⟨i 0, i 1, i 2, i 3, eq_ix4 i⟩
  obtain rfl : z = 0 := Subsingleton.elim _ _
  rw [attention_ix4, val_main_v16_apply]
  unfold attentionAt attend
  refine Finset.sum_congr rfl fun k _ => ?_
  rw [lidx_v16, ridx_v16, weight_eq]

end Cert.Attention.Reference

end
-- ==== Proof.lean ====
/-
  Single-query attention: a Pallas kernel against its jnp reference, over the extended reals.

  For each of 8 batch entries and 32 heads, one query row of 128 numbers is scaled, scored against 4096 key rows, a
  mask row (shared by the heads of a batch entry) is added, the scores go through a softmax over the keys, and the
  weights average the 4096 value rows. The kernel does this on an 8 × 8 grid, four heads per point; the reference does
  it with two batched contractions over the whole arrays. Both apply the same operations to the same numbers in the
  same order — the same scale word, the maximum taken from −∞ and once more against −∞, the sum taken from zero, the
  quotient, and the kernel's changes of float format are the identity on the extended reals — so each side is shown
  equal to one function of the four argument arrays, `Cert.Attention.attention`, and no law of arithmetic is used:

  * `Proof/Attention.lean`       the function;
  * `Proof/ReferenceValue.lean`  the reference's last stage is that function (stage by stage, at an index);
  * `Proof/BodyValue.lean`       the kernel body's stored value at (0, h, 0, d) is head h's attended value of its blocks;
  * `Proof/KernelValue.lean`     each grid point writes back its block of the function, and the blocks tile the result.

  The three programs run and leave their arguments unchanged; the ideal pass rewrote nothing, so the idealized kernel
  is the kernel's own text and there is nothing to preserve.
-/
import proofs.«410718_j54391465836544_3_alg».proof.Defs
import proofs.«410718_j54391465836544_3_alg».proof.Proof.Gen.Kernel
import proofs.«410718_j54391465836544_3_alg».proof.Proof.Gen.Kernel.Skeleton
import proofs.«410718_j54391465836544_3_alg».proof.Proof.Gen.Kernel.Launch
import proofs.«410718_j54391465836544_3_alg».proof.Proof.Gen.Kernel.Points
import proofs.«410718_j54391465836544_3_alg».proof.Proof.Gen.Kernel.Frame
import proofs.«410718_j54391465836544_3_alg».proof.Proof.Gen.KernelIdeal
import proofs.«410718_j54391465836544_3_alg».proof.Proof.Gen.KernelIdeal.Skeleton
import proofs.«410718_j54391465836544_3_alg».proof.Proof.Gen.KernelIdeal.Launch
import proofs.«410718_j54391465836544_3_alg».proof.Proof.Gen.KernelIdeal.Points
import proofs.«410718_j54391465836544_3_alg».proof.Proof.Gen.KernelIdeal.Frame
import proofs.«410718_j54391465836544_3_alg».proof.Proof.Gen.ReferenceIdeal
import proofs.«410718_j54391465836544_3_alg».proof.Proof.Gen.Pre_finite_inputs
import proofs.«410718_j54391465836544_3_alg».proof.Proof.Gen.KernelIdeal.Value
import proofs.«410718_j54391465836544_3_alg».proof.Proof.Gen.ReferenceIdeal.Run
import proofs.«410718_j54391465836544_3_alg».proof.Proof.Gen.ReferenceIdeal.Read
import proofs.«410718_j54391465836544_3_alg».proof.Proof.KernelValue
import proofs.«410718_j54391465836544_3_alg».proof.Proof.ReferenceValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From arguments that agree, the kernel's result array and the reference's last stage are both `attention` of the
    arguments. -/
theorem algebraic : Cert.algebraic_KernelIdeal_ReferenceIdeal := by
  intro m ρ m' ρ' _ hagree
  refine ⟨_, Cert.Attention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Attention.Reference.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
